-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16384 : Shape := ⟨2, ![128, 16384]⟩
abbrev S16384x16384 : Shape := ⟨2, ![16384, 16384]⟩
abbrev S16384x64 : Shape := ⟨2, ![16384, 64]⟩
abbrev S64x128 : Shape := ⟨2, ![64, 128]⟩
abbrev S_ : Shape := ⟨0, ![]⟩

class Facts : Prop where
  bcast_S_S128x16384 : S_.BroadcastsInDim S128x16384 (![] : Fin 0 → Fin S128x16384.rank)
  reducesTo_S128x16384_S_d0_1 : S128x16384.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384x64 : S_.BroadcastsInDim S16384x64 (![] : Fin 0 → Fin S16384x64.rank)
  reducesTo_S16384x64_S_d0_1 : S16384x64.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S128x16384 .f32) (main_arg1 : FVec F S16384x16384 .f32) (main_arg2 : FVec F S16384x64 .f32) (main_arg3 : FVec F S64x128 .f32) : IVec S_ 1 :=
  let main_v0 : FVec F S128x16384 .f32 := Host.absf main_arg0
  let main_cst : FVec F S_ .f32 := constant S_ .f32 0x7F800000#32
  let main_v1 : FVec F S128x16384 .f32 := broadcastInDim S128x16384 ![] bcast_S_S128x16384 main_cst
  let main_v2 : IVec S128x16384 1 := cmpf .olt main_v0 main_v1
  let main_c : IVec S_ 1 := constantI S_ 1 1#1
  let main_v3 : IVec S_ 1 := (fun x v => Host.reduce IntOp.andi x v reducesTo_S128x16384_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S128x16384 : Shape := ⟨2, ![128, 16384]⟩
abbrev S16384x16384 : Shape := ⟨2, ![16384, 16384]⟩
abbrev S16384x64 : Shape := ⟨2, ![16384, 64]⟩
abbrev S64x128 : Shape := ⟨2, ![64, 128]⟩
abbrev S128x128 : Shape := ⟨2, ![128, 128]⟩
abbrev S128x64 : Shape := ⟨2, ![128, 64]⟩

abbrev nBuf : Space → Nat
  | .hbm => 5
  | .vmem => 8
  | .smem => 0
  | _ => 0

abbrev bufTy : (tb : Table) → Fin (tcTables nBuf tb) → BufTy
  | .hbm, ⟨0, _⟩ => ⟨S128x16384, .f32⟩
  | .hbm, ⟨1, _⟩ => ⟨S16384x16384, .f32⟩
  | .hbm, ⟨2, _⟩ => ⟨S16384x64, .f32⟩
  | .hbm, ⟨3, _⟩ => ⟨S64x128, .f32⟩
  | .hbm, ⟨4, _⟩ => ⟨S128x128, .f32⟩
  | .local _ .vmem, ⟨0, _⟩ => ⟨S128x16384, .f32⟩
  | .local _ .vmem, ⟨1, _⟩ => ⟨S128x16384, .f32⟩
  | .local _ .vmem, ⟨2, _⟩ => ⟨S128x16384, .f32⟩
  | .local _ .vmem, ⟨3, _⟩ => ⟨S128x64, .f32⟩
  | .local _ .vmem, ⟨4, _⟩ => ⟨S128x64, .f32⟩
  | .local _ .vmem, ⟨5, _⟩ => ⟨S64x128, .f32⟩
  | .local _ .vmem, ⟨6, _⟩ => ⟨S128x128, .f32⟩
  | .local _ .vmem, ⟨7, _⟩ => ⟨S128x128, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x16384_S128x16384_0_0 : ∀ a, (![0, 0] : Fin 2 → Nat) a + S128x16384.size a ≤ S128x16384.size a
  h_S128x16384 : 0 < S128x16384.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64x128_S64x128_0_0 : ∀ a, (![0, 0] : Fin 2 → Nat) a + S64x128.size a ≤ S64x128.size a
  h_S64x128 : 0 < S64x128.numel
  dot_S128x16384_S128x16384_S128x128_1_1_0_0_n_n_wf : DotDims.WF S128x16384 S128x16384 S128x128 [1] [1] [0] [0] [] []
  dot_S128x64_S64x128_S128x128_1_0_0_1_n_n_wf : DotDims.WF S128x64 S64x128 S128x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S128x16384.size a
  hwx0_0 : ∀ i : grid0.Coords, EltTy.bits .f32 = 32 ∨ (Rect.block (s := S128x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S16384x16384.size a
  hwx0_1 : ∀ i : grid0.Coords, EltTy.bits .f32 = 32 ∨ (Rect.block (s := S16384x16384) S128x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S16384x64.size a
  hwx0_2 : ∀ i : grid0.Coords, EltTy.bits .f32 = 32 ∨ (Rect.block (s := S16384x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)

variable [Facts₀]

def dot_S128x16384_S128x16384_S128x128_1_1_0_0_n_n : DotDims S128x16384 S128x16384 S128x128 where
  lhsContracting := [1]
  rhsContracting := [1]
  lhsNonContracting := [0]
  rhsNonContracting := [0]
  lhsBatch := []
  rhsBatch := []
  wf := dot_S128x16384_S128x16384_S128x128_1_1_0_0_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S128x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x16384 : Shape := ⟨2, ![128, 16384]⟩
abbrev S16384x16384 : Shape := ⟨2, ![16384, 16384]⟩
abbrev S16384x64 : Shape := ⟨2, ![16384, 64]⟩
abbrev S64x128 : Shape := ⟨2, ![64, 128]⟩
abbrev S16384x128 : Shape := ⟨2, ![16384, 128]⟩
abbrev S128x128 : Shape := ⟨2, ![128, 128]⟩

abbrev nBuf : Space → Nat
  | .hbm => 7
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S16384x16384, .f32⟩
  | .hbm, ⟨2, _⟩ => ⟨S16384x64, .f32⟩
  | .hbm, ⟨3, _⟩ => ⟨S64x128, .f32⟩
  | .hbm, ⟨4, _⟩ => ⟨S16384x128, .f32⟩
  | .hbm, ⟨5, _⟩ => ⟨S128x16384, .f32⟩
  | .hbm, ⟨6, _⟩ => ⟨S128x128, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S16384x64_S64x128_S16384x128_1_0_0_1_n_n_wf : DotDims.WF S16384x64 S64x128 S16384x128 [1] [0] [0] [1] [] []
  dot_S128x16384_S16384x16384_S128x16384_1_1_0_0_n_n_wf : DotDims.WF S128x16384 S16384x16384 S128x16384 [1] [1] [0] [0] [] []
  dot_S128x16384_S16384x128_S128x128_1_0_0_1_n_n_wf : DotDims.WF S128x16384 S16384x128 S128x128 [1] [0] [0] [1] [] []

variable [Facts₀]

def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S128x16384_S16384x16384_S128x16384_1_1_0_0_n_n : DotDims S128x16384 S16384x16384 S128x16384 where
  lhsContracting := [1]
  rhsContracting := [1]
  lhsNonContracting := [0]
  rhsNonContracting := [0]
  lhsBatch := []
  rhsBatch := []
  wf := dot_S128x16384_S16384x16384_S128x16384_1_1_0_0_n_n_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf

class Facts : Prop extends Facts₀ where

variable [Facts]
-- ==== Proof.Tiles.lean ====
/-
  The mathematics of this certificate, free of any program.

  Both programs compute, for a pools matrix (128 × 16384), a path matrix (16384 × 16384), an embedding matrix
  (16384 × 64) and a weight matrix (64 × 128), the composition of three matrix products

      out(b, m) = Σ_c (Σ_d pools(b, d) · path(c, d)) · (Σ_e emb(c, e) · w(e, m)),      c over the 16384 rows.

  One of them takes the outer sum over c in one piece; the other takes it tile by tile — 128 tiles of 128 consecutive
  rows, tile t holding rows 128·t … 128·t + 127 — adding each tile's share to a running total that starts from zero.
  The two agree on the extended reals because regrouping a finite sum uses only that addition is commutative and
  associative, which holds there with the infinities included; no product is moved across a sum, so nothing here asks
  the entries to be finite.
-/
import Idealize.ShloMosaic.Lib.ValueIdx

noncomputable section

open scoped BigOperators

namespace Cert.TileSum

open Idealize.ShloMosaic Idealize.ShloMosaic.ValueIdx

/-! ## Regrouping a sum over 16384 rows by tiles of 128 -/

/-- Row `r` of tile `t`: row `128·t + r` of the long axis. -/
def tileRow (t r : Fin 128) : Fin 16384 := ⟨128 * t.val + r.val, by have := t.isLt; have := r.isLt; omega⟩

theorem tileRow_val (t r : Fin 128) : (tileRow t r).val = 128 * t.val + r.val := rfl

/-- A sum over the 16384 rows is the sum over the 128 tiles of the sums over each tile's 128 rows: every row lies in
    exactly one tile (division with remainder by 128). -/
theorem sum_rows_eq_sum_tiles {M : Type*} [AddCommMonoid M] (f : Fin 16384 → M) :
    ∑ c, f c = ∑ t : Fin 128, ∑ r : Fin 128, f (tileRow t r) := by
  rw [← Equiv.sum_comp (finProdFinEquiv (m := 128) (n := 128)) f, Fintype.sum_prod_type]
  refine Finset.sum_congr rfl fun t _ => Finset.sum_congr rfl fun r _ => congrArg f (Fin.ext ?_)
  show r.val + 128 * t.val = 128 * t.val + r.val
  omega

/-! ## Running totals over the tiles -/

/-- The total of a family indexed by the tiles, over tiles `0 … n`. -/
def upTo {M : Type*} [AddCommMonoid M] (T : Fin 128 → M) (n : ℕ) : M :=
  ∑ t ∈ Finset.range (n + 1), if h : t < 128 then T ⟨t, h⟩ else 0

/-- After the first tile the total is that tile's share (added to zero). -/
theorem upTo_zero {M : Type*} [AddCommMonoid M] (T : Fin 128 → M) : upTo T 0 = 0 + T 0 := by
  unfold upTo
  rw [Finset.sum_range_one, zero_add]
  rfl

/-- Each further tile adds its share. -/
theorem upTo_succ {M : Type*} [AddCommMonoid M] (T : Fin 128 → M) (n : ℕ) (h : n + 1 < 128) :
    upTo T (n + 1) = upTo T n + T ⟨n + 1, h⟩ := by
  unfold upTo
  rw [Finset.sum_range_succ _ (n + 1), dif_pos h]

/-- After the last tile the total is the sum over all tiles. -/
theorem upTo_last {M : Type*} [AddCommMonoid M] (T : Fin 128 → M) : upTo T 127 = ∑ t, T t := by
  unfold upTo
  rw [Finset.sum_range]
  exact Finset.sum_congr rfl fun t _ => dif_pos t.isLt

/-! ## The composed product, whole and by tiles -/

section
variable (pools : (⟨2, ![128, 16384]⟩ : Shape).Idx → EReal) (path : (⟨2, ![16384, 16384]⟩ : Shape).Idx → EReal)
  (emb : (⟨2, ![16384, 64]⟩ : Shape).Idx → EReal) (w : (⟨2, ![64, 128]⟩ : Shape).Idx → EReal)

/-- Row `c`'s share of entry (b, m): (Σ_d pools(b, d) · path(c, d)) · (Σ_e emb(c, e) · w(e, m)). -/
def rowTerm (b m : Fin 128) (c : Fin 16384) : EReal :=
  (∑ d : Fin 16384, pools (ix2 b d) * path (ix2 c d)) * (∑ e : Fin 64, emb (ix2 c e) * w (ix2 e m))

/-- The composed product: entry (b, m) is the sum of all rows' shares. -/
def composed : (⟨2, ![128, 128]⟩ : Shape).Idx → EReal := fun i => ∑ c : Fin 16384, rowTerm pools path emb w (i 0) (i 1) c

/-- Tile `t`'s share of an entry: the sum of its 128 rows' shares. -/
def tileTerm (t : Fin 128) : (⟨2, ![128, 128]⟩ : Shape).Idx → EReal :=
  fun i => ∑ r : Fin 128, rowTerm pools path emb w (i 0) (i 1) (tileRow t r)

/-- The running total after tile `n`. -/
def afterTile (n : ℕ) : (⟨2, ![128, 128]⟩ : Shape).Idx → EReal :=
  fun i => upTo (fun t => tileTerm pools path emb w t i) n

theorem afterTile_zero : afterTile pools path emb w 0 = fun i => 0 + tileTerm pools path emb w 0 i :=
  funext fun i => upTo_zero (fun t => tileTerm pools path emb w t i)

theorem afterTile_succ (n : ℕ) (h : n + 1 < 128) :
    afterTile pools path emb w (n + 1) = fun i => afterTile pools path emb w n i + tileTerm pools path emb w ⟨n + 1, h⟩ i :=
  funext fun i => upTo_succ (fun t => tileTerm pools path emb w t i) n h

/-- After the last tile the running total is the composed product. -/
theorem afterTile_last : afterTile pools path emb w 127 = composed pools path emb w := by
  funext i
  show upTo (fun t => tileTerm pools path emb w t i) 127 = _
  rw [upTo_last]
  exact (sum_rows_eq_sum_tiles (rowTerm pools path emb w (i 0) (i 1))).symm

end

end Cert.TileSum

end
-- ==== Proof.Step.lean ====
/-
  One grid point's arithmetic, read entry by entry on the extended reals.

  At a grid point the body holds the whole pools matrix (128 × 16384), one tile of 128 rows of the path matrix
  (128 × 16384), the same 128 rows of the embedding matrix (128 × 64), the whole weight matrix (64 × 128) and the running
  total (128 × 128). It forms three products into zero accumulators — pools times the path tile transposed (both
  contracted along their second axis), the embedding tile times the weights, and the product of those two — and adds the
  last to the running total. The changes of float format in between are the identity on the extended reals, and a product
  into a zero accumulator is the plain sum over the contracted coordinate. So entry (b, m) of what the point stores is

      total(b, m) + Σ_r (Σ_d pools(b, d) · pathTile(r, d)) · (Σ_e embTile(r, e) · w(e, m)),     r over the tile's 128 rows.
-/
import proofs.«119083_j78683800863346_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Step

open Cert.KernelIdeal Cert.KernelIdeal.Gen Idealize.ShloMosaic Idealize.ShloMosaic.ValueIdx

/-! ## Where each product reads its operands -/

theorem poolsPath_lhs_0 (i : S128x128.Idx) (q : dot_S128x16384_S128x16384_S128x128_1_1_0_0_n_n.contr.Idx) :
    (dot_S128x16384_S128x16384_S128x128_1_1_0_0_n_n.lhsIdx i q 0).val = (i 0).val := by
  unfold DotDims.lhsIdx
  rw [dif_neg (show ¬(0 : Fin S128x16384.rank) ∈ dot_S128x16384_S128x16384_S128x128_1_1_0_0_n_n.lhsBatch by decide), dif_pos (show (0 : Fin S128x16384.rank) ∈ dot_S128x16384_S128x16384_S128x128_1_1_0_0_n_n.lhsNonContracting by decide)]
  rfl
theorem poolsPath_lhs_1 (i : S128x128.Idx) (q : dot_S128x16384_S128x16384_S128x128_1_1_0_0_n_n.contr.Idx) :
    (dot_S128x16384_S128x16384_S128x128_1_1_0_0_n_n.lhsIdx i q 1).val = (q ⟨0, by decide⟩).val :=
  dot_S128x16384_S128x16384_S128x128_1_1_0_0_n_n.lhsIdx_val_of_single rfl i q
theorem poolsPath_rhs_0 (i : S128x128.Idx) (q : dot_S128x16384_S128x16384_S128x128_1_1_0_0_n_n.contr.Idx) :
    (dot_S128x16384_S128x16384_S128x128_1_1_0_0_n_n.rhsIdx i q 0).val = (i 1).val := by
  unfold DotDims.rhsIdx
  rw [dif_neg (show ¬(0 : Fin S128x16384.rank) ∈ dot_S128x16384_S128x16384_S128x128_1_1_0_0_n_n.rhsBatch by decide), dif_pos (show (0 : Fin S128x16384.rank) ∈ dot_S128x16384_S128x16384_S128x128_1_1_0_0_n_n.rhsNonContracting by decide)]
  rfl
theorem poolsPath_rhs_1 (i : S128x128.Idx) (q : dot_S128x16384_S128x16384_S128x128_1_1_0_0_n_n.contr.Idx) :
    (dot_S128x16384_S128x16384_S128x128_1_1_0_0_n_n.rhsIdx i q 1).val = (q ⟨0, by decide⟩).val :=
  dot_S128x16384_S128x16384_S128x128_1_1_0_0_n_n.rhsIdx_val_of_single rfl i q

theorem embW_lhs_0 (i : S128x128.Idx) (q : dot_S128x64_S64x128_S128x128_1_0_0_1_n_n.contr.Idx) :
    (dot_S128x64_S64x128_S128x128_1_0_0_1_n_n.lhsIdx i q 0).val = (i 0).val := by
  unfold DotDims.lhsIdx
  rw [dif_neg (show ¬(0 : Fin S128x64.rank) ∈ dot_S128x64_S64x128_S128x128_1_0_0_1_n_n.lhsBatch by decide), dif_pos (show (0 : Fin S128x64.rank) ∈ dot_S128x64_S64x128_S128x128_1_0_0_1_n_n.lhsNonContracting by decide)]
  rfl
theorem embW_lhs_1 (i : S128x128.Idx) (q : dot_S128x64_S64x128_S128x128_1_0_0_1_n_n.contr.Idx) :
    (dot_S128x64_S64x128_S128x128_1_0_0_1_n_n.lhsIdx i q 1).val = (q ⟨0, by decide⟩).val :=
  dot_S128x64_S64x128_S128x128_1_0_0_1_n_n.lhsIdx_val_of_single rfl i q
theorem embW_rhs_0 (i : S128x128.Idx) (q : dot_S128x64_S64x128_S128x128_1_0_0_1_n_n.contr.Idx) :
    (dot_S128x64_S64x128_S128x128_1_0_0_1_n_n.rhsIdx i q 0).val = (q ⟨0, by decide⟩).val :=
  dot_S128x64_S64x128_S128x128_1_0_0_1_n_n.rhsIdx_val_of_single rfl i q
theorem embW_rhs_1 (i : S128x128.Idx) (q : dot_S128x64_S64x128_S128x128_1_0_0_1_n_n.contr.Idx) :
    (dot_S128x64_S64x128_S128x128_1_0_0_1_n_n.rhsIdx i q 1).val = (i 1).val := by
  unfold DotDims.rhsIdx
  rw [dif_neg (show ¬(1 : Fin S64x128.rank) ∈ dot_S128x64_S64x128_S128x128_1_0_0_1_n_n.rhsBatch by decide), dif_pos (show (1 : Fin S64x128.rank) ∈ dot_S128x64_S64x128_S128x128_1_0_0_1_n_n.rhsNonContracting by decide)]
  rfl

theorem outer_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem outer_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem outer_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem outer_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-! ## The three products at an entry -/

/-- Pools times the path tile transposed: entry (b, r) is Σ_d pools(b, d) · pathTile(r, d) — both operands contracted along their second axis. -/
theorem poolsPath_apply {φ₁ φ₂ : FTy} (l : FVec Ideal S128x16384 φ₁) (r : FVec Ideal S128x16384 φ₂) (i : S128x128.Idx) :
    matmul dot_S128x16384_S128x16384_S128x128_1_1_0_0_n_n none l r (constant S128x128 .f32 0x00000000#32) i
      = ∑ k : Fin 16384, l (ix2 (i 0) k) * r (ix2 (i 1) k) := by
  show FloatOps.matmul dot_S128x16384_S128x16384_S128x128_1_1_0_0_n_n none l r (constant S128x128 .f32 0x00000000#32) i = _
  rw [Ideal.matmul_constant_zero_apply, ← Equiv.sum_comp (contrEquiv1 dot_S128x16384_S128x16384_S128x128_1_1_0_0_n_n 16384 rfl rfl).symm]
  refine Finset.sum_congr rfl fun k _ => ?_
  have hk := contrEquiv1_symm_val dot_S128x16384_S128x16384_S128x128_1_1_0_0_n_n 16384 rfl rfl k
  have el : dot_S128x16384_S128x16384_S128x128_1_1_0_0_n_n.lhsIdx i ((contrEquiv1 dot_S128x16384_S128x16384_S128x128_1_1_0_0_n_n 16384 rfl rfl).symm k) = ix2 (i 0) k := funext fun a => Fin.ext (by
    match a with
    | ⟨0, _⟩ => exact poolsPath_lhs_0 _ _
    | ⟨1, _⟩ => exact (poolsPath_lhs_1 _ _).trans hk)
  have er : dot_S128x16384_S128x16384_S128x128_1_1_0_0_n_n.rhsIdx i ((contrEquiv1 dot_S128x16384_S128x16384_S128x128_1_1_0_0_n_n 16384 rfl rfl).symm k) = ix2 (i 1) k := funext fun a => Fin.ext (by
    match a with
    | ⟨0, _⟩ => exact poolsPath_rhs_0 _ _
    | ⟨1, _⟩ => exact (poolsPath_rhs_1 _ _).trans hk)
  exact congrArg₂ (· * ·) (congrArg l el) (congrArg r er)

/-- The embedding tile times the weights: entry (r, m) is Σ_e embTile(r, e) · w(e, m). -/
theorem embW_apply {φ₁ φ₂ : FTy} (l : FVec Ideal S128x64 φ₁) (r : FVec Ideal S64x128 φ₂) (i : S128x128.Idx) :
    matmul dot_S128x64_S64x128_S128x128_1_0_0_1_n_n none l r (constant S128x128 .f32 0x00000000#32) i
      = ∑ k : Fin 64, l (ix2 (i 0) k) * r (ix2 k (i 1)) := by
  show FloatOps.matmul dot_S128x64_S64x128_S128x128_1_0_0_1_n_n none l r (constant S128x128 .f32 0x00000000#32) i = _
  rw [Ideal.matmul_constant_zero_apply, ← Equiv.sum_comp (contrEquiv1 dot_S128x64_S64x128_S128x128_1_0_0_1_n_n 64 rfl rfl).symm]
  refine Finset.sum_congr rfl fun k _ => ?_
  have hk := contrEquiv1_symm_val dot_S128x64_S64x128_S128x128_1_0_0_1_n_n 64 rfl rfl k
  have el : dot_S128x64_S64x128_S128x128_1_0_0_1_n_n.lhsIdx i ((contrEquiv1 dot_S128x64_S64x128_S128x128_1_0_0_1_n_n 64 rfl rfl).symm k) = ix2 (i 0) k := funext fun a => Fin.ext (by
    match a with
    | ⟨0, _⟩ => exact embW_lhs_0 _ _
    | ⟨1, _⟩ => exact (embW_lhs_1 _ _).trans hk)
  have er : dot_S128x64_S64x128_S128x128_1_0_0_1_n_n.rhsIdx i ((contrEquiv1 dot_S128x64_S64x128_S128x128_1_0_0_1_n_n 64 rfl rfl).symm k) = ix2 k (i 1) := funext fun a => Fin.ext (by
    match a with
    | ⟨0, _⟩ => exact (embW_rhs_0 _ _).trans hk
    | ⟨1, _⟩ => exact embW_rhs_1 _ _)
  exact congrArg₂ (· * ·) (congrArg l el) (congrArg r er)

/-- The product of the two: entry (b, m) is Σ_r left(b, r) · right(r, m). -/
theorem outer_apply {φ₁ φ₂ : FTy} (l : FVec Ideal S128x128 φ₁) (r : FVec Ideal S128x128 φ₂) (i : S128x128.Idx) :
    matmul dot_S128x128_S128x128_S128x128_1_0_0_1_n_n none l r (constant S128x128 .f32 0x00000000#32) i
      = ∑ k : Fin 128, l (ix2 (i 0) k) * r (ix2 k (i 1)) := by
  show FloatOps.matmul dot_S128x128_S128x128_S128x128_1_0_0_1_n_n none l r (constant S128x128 .f32 0x00000000#32) i = _
  rw [Ideal.matmul_constant_zero_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx i ((contrEquiv1 dot_S128x128_S128x128_S128x128_1_0_0_1_n_n 128 rfl rfl).symm k) = ix2 (i 0) k := funext fun a => Fin.ext (by
    match a with
    | ⟨0, _⟩ => exact outer_lhs_0 _ _
    | ⟨1, _⟩ => exact (outer_lhs_1 _ _).trans hk)
  have er : dot_S128x128_S128x128_S128x128_1_0_0_1_n_n.rhsIdx i ((contrEquiv1 dot_S128x128_S128x128_S128x128_1_0_0_1_n_n 128 rfl rfl).symm k) = ix2 k (i 1) := funext fun a => Fin.ext (by
    match a with
    | ⟨0, _⟩ => exact (outer_rhs_0 _ _).trans hk
    | ⟨1, _⟩ => exact outer_rhs_1 _ _)
  exact congrArg₂ (· * ·) (congrArg l el) (congrArg r er)

/-! ## The whole step -/

/-- What a grid point stores, at entry (b, m): the running total there plus the tile's share. -/
theorem step_apply (pools pathTile : Vec Ideal S128x16384 .f32) (embTile : Vec Ideal S128x64 .f32) (w : Vec Ideal S64x128 .f32)
    (total : Vec Ideal S128x128 .f32) (i : S128x128.Idx) :
    k0_pay2 (F := Ideal) pools pathTile embTile w total i
      = total i + ∑ r : Fin 128, (∑ d : Fin 16384, pools (ix2 (i 0) d) * pathTile (ix2 r d)) * (∑ e : Fin 64, embTile (ix2 r e) * w (ix2 e (i 1))) := by
  unfold k0_pay2
  refine (congrFun (shapeCast_self _ _) i).trans ?_
  refine (addf_apply _ _ i).trans (congrArg (total i + ·) ?_)
  refine (outer_apply _ _ i).trans (Finset.sum_congr rfl fun r _ => ?_)
  exact congrArg₂ (· * ·) (poolsPath_apply _ _ (ix2 (i 0) r)) (embW_apply _ _ (ix2 r (i 1)))

/-- The zero block the first grid point stores before it accumulates: every entry is the extended real 0. -/
theorem zero_apply (i : S128x128.Idx) : k0_pay1 (F := Ideal) i = 0 := by
  unfold k0_pay1
  refine (congrFun (shapeCast_self _ _) i).trans ?_
  exact Ideal.ofBits_zero_f32

end Cert.KernelIdeal.Step

end
-- ==== Proof.Left.lean ====
/-
  What one run of the body leaves behind, as values.

  The body keeps a running total in a buffer of its own and copies it to the output block at the end of every grid
  point. At the first grid point it first stores the zero block into the running total; at every point it then loads
  the total, adds the point's share (the step function of the loaded blocks and of the total), stores the sum back, loads
  it again and stores that to the output block. So after a point both the running total and the output block hold the
  step function applied to the point's input blocks and to the total the point started from — the zero block at the
  first point, what the point before left at the others. Each statement reads the buffer's last covering store.
-/
import proofs.«119083_j78683800863346_1_alg».proof.Proof.Gen.KernelIdeal.Frame
import Idealize.ShloMosaic.Lib.Pipeline.Value
import Idealize.ShloMosaic.Lib.Tactic

noncomputable section

namespace Cert.KernelIdeal.Left

open Cert.KernelIdeal Cert.KernelIdeal.Gen Idealize.ShloMosaic Idealize.ShloMosaic.TcCoe Idealize.SL.Sem

variable {F : FTy → Type} [FloatOps F]
variable (c : Dev nD) (i : grid0.Coords)
  (arg1 : Memref sig .tc .vmem S128x16384 .f32) (harg1 : arg1.IsWhole) (arg2 : Memref sig .tc .vmem S128x16384 .f32) (harg2 : arg2.IsWhole)
  (arg3 : Memref sig .tc .vmem S128x64 .f32) (harg3 : arg3.IsWhole) (arg4 : Memref sig .tc .vmem S64x128 .f32) (harg4 : arg4.IsWhole)
  (arg5 : Memref sig .tc .vmem S128x128 .f32) (harg5 : arg5.IsWhole) (arg6 : Memref sig .tc .vmem S128x128 .f32) (harg6 : arg6.IsWhole)
  (x0 x1 : Vec F S128x16384 .f32) (x2 : Vec F S128x64 .f32) (x3 : Vec F S64x128 .f32)

/-- The offset of a block that starts at the origin. -/
theorem origin : (![0, 0] : Fin 2 → Nat) = fun _ => 0 := funext fun a => by fin_cases a <;> rfl

/-- A later grid point leaves in the running total the step function of its blocks and of the total it found. -/
theorem total_later (hc0 : ¬cond0_0 i) (xs0 : Vec F S128x128 .f32) :
    sout0_B_0 c i arg1 harg1 arg2 harg2 arg3 harg3 arg4 harg4 arg5 harg5 arg6 harg6 hc0 x0 x1 x2 x3 xs0 = k0_pay2 x0 x1 x2 x3 xs0 := by
  unfold sout0_B_0
  rw [View.read_writes_eq_canon _ _ _ (scover0_B_0 c i arg1 harg1 arg2 harg2 arg3 harg3 arg4 harg4 arg5 harg5 arg6 harg6 hc0 x0 x1 x2 x3 xs0)]
  unfold kernelRun0_B
  dsimp only
  sl_unfold_words
  rw [View.canon_unit_zero origin]
  simp only [View.readAt_eq_ld, harg1.read_unread, harg2.read_unread, harg3.read_unread, harg4.read_unread, harg6.read_unread, View.ld_unit_zero (S := S128x16384) origin, View.ld_unit_zero (S := S128x64) origin, View.ld_unit_zero (S := S64x128) origin, View.ld_unit_zero (S := S128x128) origin]

/-- … and the same in the output block, which is a copy of the running total. -/
theorem out_later (hc0 : ¬cond0_0 i) (xs0 : Vec F S128x128 .f32) :
    out0_B_4 c i arg1 harg1 arg2 harg2 arg3 harg3 arg4 harg4 arg5 harg5 arg6 harg6 hc0 x0 x1 x2 x3 xs0 = k0_pay2 x0 x1 x2 x3 xs0 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero origin]
  simp only [View.readAt_eq_ld, harg1.read_unread, harg2.read_unread, harg3.read_unread, harg4.read_unread, harg6.read_unread, View.ld_unit_zero (S := S128x16384) origin, View.ld_unit_zero (S := S128x64) origin, View.ld_unit_zero (S := S64x128) origin, View.ld_unit_zero (S := S128x128) origin, View.readCov_unit_zero (S := S128x128) _ origin]

/-- The first grid point leaves in the running total the step function of its blocks and of the zero block. -/
theorem total_first (hc0 : cond0_0 i) :
    sout0_A_0 c i arg1 harg1 arg2 harg2 arg3 harg3 arg4 harg4 arg5 harg5 arg6 harg6 hc0 x0 x1 x2 x3 = k0_pay2 x0 x1 x2 x3 (k0_pay1 (F := F)) := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_cons_unit_zero (S := S128x128) origin, View.readCov_unit_zero (S := S128x128) _ origin]
  simp only [View.readAt_eq_ld, harg1.read_unread, harg2.read_unread, harg3.read_unread, harg4.read_unread, View.ld_unit_zero (S := S128x16384) origin, View.ld_unit_zero (S := S128x64) origin, View.ld_unit_zero (S := S64x128) origin, View.ld_unit_zero (S := S128x128) origin]

/-- … and the same in the output block. -/
theorem out_first (hc0 : cond0_0 i) :
    out0_A_4 c i arg1 harg1 arg2 harg2 arg3 harg3 arg4 harg4 arg5 harg5 arg6 harg6 hc0 x0 x1 x2 x3 = k0_pay2 x0 x1 x2 x3 (k0_pay1 (F := F)) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero origin]
  simp only [View.readAt_eq_ld, harg1.read_unread, harg2.read_unread, harg3.read_unread, harg4.read_unread, View.ld_unit_zero (S := S128x16384) origin, View.ld_unit_zero (S := S128x64) origin, View.ld_unit_zero (S := S64x128) origin, View.ld_unit_zero (S := S128x128) origin, View.readCov_unit_zero (S := S128x128) _ origin]
  exact View.readCov_cons_toLoadRect _ _ _ _

end Cert.KernelIdeal.Left

end
-- ==== Proof.Tiled.lean ====
/-
  The tiled program's result array holds the composed product.

  The grid has 128 points; point t is handed the whole pools matrix, rows 128·t … 128·t + 127 of the path matrix and of
  the embedding matrix (tile t), and the whole weight matrix. It adds tile t's share of every entry to a running total
  that the first point starts from zero, and copies the total to the one output block. So after point n the running
  total is the sum of the shares of tiles 0 … n (by induction on n), after the last point it is the sum over all tiles,
  which is the sum over all 16384 rows regrouped — the composed product —, and the one write-back, after the last point,
  writes exactly that to the whole result array.
-/
import proofs.«119083_j78683800863346_1_alg».proof.Proof.Gen.KernelIdeal.Value
import proofs.«119083_j78683800863346_1_alg».proof.Proof.Tiles
import proofs.«119083_j78683800863346_1_alg».proof.Proof.Step
import proofs.«119083_j78683800863346_1_alg».proof.Proof.Left
import Idealize.ShloMosaic.Lib.Pipeline.Value

noncomputable section

open scoped BigOperators

namespace Cert.KernelIdeal.Tiled

open Cert.KernelIdeal Cert.KernelIdeal.Gen Idealize.ShloMosaic Idealize.ShloMosaic.TcCoe Idealize.SL.Sem
open Idealize.ShloMosaic.ValueIdx Cert.TileSum
open Idealize.ShloMosaic.Pipeline (Dat)

variable (m : (ℓ : Loc nD τ sig) → Buf (Elt Ideal) ℓ) (ρ : Dev nD → PrngReg)

/-! ## The four argument arrays and the blocks a grid point is handed -/

/-- The pools matrix, as the region finds it. -/
abbrev pools (c : Dev nD) : Vec Ideal S128x16384 .f32 := V m c main_arg0
/-- The path matrix. -/
abbrev path (c : Dev nD) : Vec Ideal S16384x16384 .f32 := V m c main_arg1
/-- The embedding matrix. -/
abbrev emb (c : Dev nD) : Vec Ideal S16384x64 .f32 := V m c main_arg2
/-- The weight matrix. -/
abbrev wts (c : Dev nD) : Vec Ideal S64x128 .f32 := V m c main_arg3

/-- What point `t` is handed of each. -/
abbrev poolsBlk (c : Dev nD) (t : Fin cfg0.N) : Vec Ideal S128x16384 .f32 := iblk m c 0 t
abbrev pathBlk (c : Dev nD) (t : Fin cfg0.N) : Vec Ideal S128x16384 .f32 := iblk m c 1 t
abbrev embBlk (c : Dev nD) (t : Fin cfg0.N) : Vec Ideal S128x64 .f32 := iblk m c 2 t
abbrev wtsBlk (c : Dev nD) (t : Fin cfg0.N) : Vec Ideal S64x128 .f32 := iblk m c 3 t

/-- A grid point as a tile number. -/
def tile (t : Fin cfg0.N) : Fin 128 := ⟨t.val, lt_of_lt_of_eq t.isLt N_0⟩

/-- The block index of each operand at each point, decided over the grid: pools, weights and the output always at block
    (0, 0); the path and embedding matrices at block row `t`. -/
theorem block_index : ∀ t : Fin cfg0.N,
    (win0_0.index t 0 = 0 ∧ win0_0.index t 1 = 0) ∧ (win0_1.index t 0 = t.val ∧ win0_1.index t 1 = 0)
      ∧ (win0_2.index t 0 = t.val ∧ win0_2.index t 1 = 0) ∧ (win0_3.index t 0 = 0 ∧ win0_3.index t 1 = 0)
      ∧ (win0_4.index t 0 = 0 ∧ win0_4.index t 1 = 0) :=
  (by decide +kernel : ∀ t : Fin grid0.N,
    (win0_0.index t 0 = 0 ∧ win0_0.index t 1 = 0) ∧ (win0_1.index t 0 = t.val ∧ win0_1.index t 1 = 0)
      ∧ (win0_2.index t 0 = t.val ∧ win0_2.index t 1 = 0) ∧ (win0_3.index t 0 = 0 ∧ win0_3.index t 1 = 0)
      ∧ (win0_4.index t 0 = 0 ∧ win0_4.index t 1 = 0))

/-- Every point is handed the whole pools matrix. -/
theorem poolsBlk_eq (c : Dev nD) (t : Fin cfg0.N) : poolsBlk m c t = pools m c := by
  have hi := (block_index t).1
  funext j
  show iblk m c 0 t j = _
  unfold iblk
  rw [View.read_apply]
  show V m c main_arg0 _ = V m c main_arg0 j
  congr 1
  funext a
  apply Fin.ext
  match a with
  | ⟨0, _⟩ => show win0_0.index t 0 * 128 + 1 * (j 0).val = (j 0).val; rw [hi.1]; omega
  | ⟨1, _⟩ => show win0_0.index t 1 * 16384 + 1 * (j 1).val = (j 1).val; rw [hi.2]; omega

/-- … and the whole weight matrix. -/
theorem wtsBlk_eq (c : Dev nD) (t : Fin cfg0.N) : wtsBlk m c t = wts m c := by
  have hi := (block_index t).2.2.2.1
  funext j
  show iblk m c 3 t j = _
  unfold iblk
  rw [View.read_apply]
  show V m c main_arg3 _ = V m c main_arg3 j
  congr 1
  funext a
  apply Fin.ext
  match a with
  | ⟨0, _⟩ => show win0_3.index t 0 * 64 + 1 * (j 0).val = (j 0).val; rw [hi.1]; omega
  | ⟨1, _⟩ => show win0_3.index t 1 * 128 + 1 * (j 1).val = (j 1).val; rw [hi.2]; omega

/-- Row `r` of the path block at point `t` is row `128·t + r` of the path matrix. -/
theorem pathBlk_apply (c : Dev nD) (t : Fin cfg0.N) (r : Fin 128) (d : Fin 16384) :
    pathBlk m c t (ix2 r d) = path m c (ix2 (tileRow (tile t) r) d) := by
  have hi := (block_index t).2.1
  show iblk m c 1 t (ix2 r d) = _
  unfold iblk
  rw [View.read_apply]
  show V m c main_arg1 _ = V m c main_arg1 _
  congr 1
  funext a
  apply Fin.ext
  match a with
  | ⟨0, _⟩ => show win0_1.index t 0 * 128 + 1 * r.val = 128 * t.val + r.val; rw [hi.1]; omega
  | ⟨1, _⟩ => show win0_1.index t 1 * 16384 + 1 * d.val = d.val; rw [hi.2]; omega

/-- Row `r` of the embedding block at point `t` is row `128·t + r` of the embedding matrix. -/
theorem embBlk_apply (c : Dev nD) (t : Fin cfg0.N) (r : Fin 128) (e : Fin 64) :
    embBlk m c t (ix2 r e) = emb m c (ix2 (tileRow (tile t) r) e) := by
  have hi := (block_index t).2.2.1
  show iblk m c 2 t (ix2 r e) = _
  unfold iblk
  rw [View.read_apply]
  show V m c main_arg2 _ = V m c main_arg2 _
  congr 1
  funext a
  apply Fin.ext
  match a with
  | ⟨0, _⟩ => show win0_2.index t 0 * 128 + 1 * r.val = 128 * t.val + r.val; rw [hi.1]; omega
  | ⟨1, _⟩ => show win0_2.index t 1 * 64 + 1 * e.val = e.val; rw [hi.2]; omega

/-! ## One point's step, in terms of the whole arrays -/

/-- Point `t` turns a running total into that total plus tile `t`'s share. -/
theorem step_eq (c : Dev nD) (t : Fin cfg0.N) (total : Vec Ideal S128x128 .f32) :
    k0_pay2 (F := Ideal) (poolsBlk m c t) (pathBlk m c t) (embBlk m c t) (wtsBlk m c t) total
      = fun i => total i + tileTerm (pools m c) (path m c) (emb m c) (wts m c) (tile t) i := by
  funext i
  refine (Step.step_apply (poolsBlk m c t) (pathBlk m c t) (embBlk m c t) (wtsBlk m c t) total i).trans ?_
  show total i + _ = total i + ∑ r : Fin 128, rowTerm (pools m c) (path m c) (emb m c) (wts m c) (i 0) (i 1) (tileRow (tile t) r)
  refine congrArg (total i + ·) (Finset.sum_congr rfl fun r _ => ?_)
  unfold rowTerm
  exact congrArg₂ (· * ·)
    (Finset.sum_congr rfl fun d _ => congrArg₂ (· * ·) (congrFun (poolsBlk_eq m c t) (ix2 (i 0) d)) (pathBlk_apply m c t r d))
    (Finset.sum_congr rfl fun e _ => congrArg₂ (· * ·) (embBlk_apply m c t r e) (congrFun (wtsBlk_eq m c t) (ix2 e (i 1))))

/-! ## The running total after each point -/

/-- The sum of the shares of tiles `0 … n`. -/
def totalAfter (c : Dev nD) (n : ℕ) : Vec Ideal S128x128 .f32 := afterTile (pools m c) (path m c) (emb m c) (wts m c) n

/-- After point `n` both the output block and the running total hold the sum of the shares of tiles `0 … n`: the first
    point starts from the zero block, every later point from what the point before left. -/
theorem held (c : Dev nD) : ∀ (n : ℕ) (h : n < cfg0.N), outsAt0 m c n h = (totalAfter m c n, totalAfter m c n)
  | 0, h => by
    have h0 : (⟨0, h⟩ : Fin cfg0.N).val % 128 = 0 := rfl
    have hs : k0_pay2 (F := Ideal) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (k0_pay1 (F := Ideal)) = totalAfter m c 0 :=
      (step_eq m c (⟨0, h⟩ : Fin cfg0.N) (k0_pay1 (F := Ideal))).trans (by
        unfold totalAfter
        rw [afterTile_zero]
        funext i
        show k0_pay1 (F := Ideal) i + _ = 0 + _
        rw [Step.zero_apply]
        rfl)
    rw [outsAt0_A m c (⟨0, h⟩ : Fin cfg0.N) h0]
    refine Prod.ext ?_ ?_
    · dsimp only
      exact (Left.out_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) ((hcond0_0 (⟨0, h⟩ : Fin cfg0.N)).mpr h0)).trans hs
    · dsimp only
      exact (Left.total_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) ((hcond0_0 (⟨0, h⟩ : Fin cfg0.N)).mpr h0)).trans hs
  | n + 1, h => by
    have hN : cfg0.N = 128 := N_0
    have hB : ¬(⟨n + 1, h⟩ : Fin cfg0.N).val % 128 = 0 := by dsimp only; omega
    have hprev : (outsAt0 m c n (Nat.lt_of_succ_lt h)).2 = totalAfter m c n := by rw [held c n (Nat.lt_of_succ_lt h)]
    have hs : k0_pay2 (F := Ideal) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2 = totalAfter m c (n + 1) := by
      rw [hprev]
      refine (step_eq m c (⟨n + 1, h⟩ : Fin cfg0.N) (totalAfter m c n)).trans ?_
      unfold totalAfter
      rw [afterTile_succ _ _ _ _ n (by omega)]
      rfl
    rw [outsAt0_B m c (⟨n + 1, h⟩ : Fin cfg0.N) hB]
    refine Prod.ext ?_ ?_
    · dsimp only
      exact (Left.out_later c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (fun hh => hB ((hcond0_0 (⟨n + 1, h⟩ : Fin cfg0.N)).mp hh)) (outsAt0 m c n (Nat.lt_of_succ_lt h)).2).trans hs
    · dsimp only
      exact (Left.total_later c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (fun hh => hB ((hcond0_0 (⟨n + 1, h⟩ : Fin cfg0.N)).mp hh)) (outsAt0 m c n (Nat.lt_of_succ_lt h)).2).trans hs

/-! ## The result array -/

/-- The composed product of the four argument arrays, as contents of the result array. -/
abbrev result (c : Dev nD) : Buf (Elt Ideal) ((c : Thread nD τ).loc main_v0) :=
  composed (pools m c) (path m c) (emb m c) (wts m c)

/-- The last grid point. -/
def lastPoint : Fin cfg0.N := ⟨127, by rw [show cfg0.N = 128 from N_0]; decide⟩

/-- The one write-back, after the last point, writes the composed product: by then the running total is the sum over all
    tiles, and the output's one block, at block (0, 0) and of the array's own size, is the whole array. -/
theorem flushed_eq (c : Dev nD) (t : Fin cfg0.N) (hf : (cfg0.win 4).flush t = true) :
    (dats m 0 c).flushed 4 t = ((cfg0.win 4).blk t).view.read (Elt Ideal) (result m c) := by
  have hN : cfg0.N = 128 := N_0
  have h127 : t.val = 127 := by have := (flush0_4 t).mp hf; have := t.isLt; omega
  have e : totalAfter m c t.val = result m c := by rw [h127]; exact afterTile_last _ _ _ _
  rw [Value.flushed4, held m c t.val t.isLt]
  dsimp only
  rw [e]
  have hi := (block_index t).2.2.2.2
  have hz' : (fun a => win0_4.index t a * main_v0.ty.shape.size a) = fun _ => 0 := funext fun a => by
    match a with
    | ⟨0, _⟩ => show win0_4.index t 0 * 128 = 0; rw [hi.1]
    | ⟨1, _⟩ => show win0_4.index t 1 * 128 = 0; rw [hi.2]
  exact (Memref.read_access_unit_zero (Elt Ideal) main_v0 hz' (fun a => by rw [congrFun hz' a]; simp) (result m c)).symm

/-- So the result array ends holding the composed product: the last point's block covers it. -/
theorem final_result (c : Dev nD) : (dats m 0 c).arrAt 4 cfg0.N = result m c :=
  (dats m 0 c).arrAt_eq_of_cover 4 (result m c) (flushed_eq m c) fun i =>
    ⟨lastPoint, (flush0_4 lastPoint).mpr rfl, by
      have hi := (block_index lastPoint).2.2.2.2
      show i ∈ ((View.whole main_v0).slice (win0_4.rect lastPoint)).set
      rw [View.set_slice_whole, Rect.mem_set_unit]
      intro a
      have h0 : (i 0 : Nat) < 128 := (i 0).isLt
      have h1 : (i 1 : Nat) < 128 := (i 1).isLt
      match a with
      | ⟨0, _⟩ => show win0_4.index lastPoint 0 * win0_4.size 0 ≤ (i 0 : Nat) ∧ (i 0 : Nat) < win0_4.index lastPoint 0 * win0_4.size 0 + win0_4.xsize (grid0.coords lastPoint) 0
                  rw [hi.1, show win0_4.xsize (grid0.coords lastPoint) 0 = 128 from by decide +kernel]; omega
      | ⟨1, _⟩ => show win0_4.index lastPoint 1 * win0_4.size 1 ≤ (i 1 : Nat) ∧ (i 1 : Nat) < win0_4.index lastPoint 1 * win0_4.size 1 + win0_4.xsize (grid0.coords lastPoint) 1
                  rw [hi.2, show win0_4.xsize (grid0.coords lastPoint) 1 = 128 from by decide +kernel]; omega⟩

/-- The run, read: every weakly fair execution ends with the result array at the composed product of the argument
    arrays, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_result m c), (h c).2⟩) (Value.run_blocks m ρ)

end Cert.KernelIdeal.Tiled

end
-- ==== Proof.Whole.lean ====
/-
  The plain program's result is the composed product.

  It forms X = emb · w (16384 × 128), P = pools · pathᵀ (128 × 16384, both operands contracted along their second axis)
  and P · X. Entry (b, m) of the last is Σ_c P(b, c) · X(c, m) with P(b, c) = Σ_d pools(b, d) · path(c, d) and
  X(c, m) = Σ_e emb(c, e) · w(e, m): the composed product, term by term, once each stage's operand positions are written
  by their two coordinates.
-/
import proofs.«119083_j78683800863346_1_alg».proof.Proof.Gen.ReferenceIdeal.Read
import proofs.«119083_j78683800863346_1_alg».proof.Proof.Tiles

noncomputable section

open scoped BigOperators

namespace Cert.ReferenceIdeal.Whole

open Cert.ReferenceIdeal Cert.ReferenceIdeal.Gen Cert.ReferenceIdeal.Read Idealize.ShloMosaic Idealize.ShloMosaic.ValueIdx

/-- Where entry (b, c) of P reads pools: at (b, d). -/
theorem pools_at (i : S128x128.Idx) (c d : Fin 16384) : lidx_main_v1 (lidx_main_v2 i c) d = ix2 (i 0) d :=
  funext fun a => Fin.ext (by match a with | ⟨0, _⟩ => rfl | ⟨1, _⟩ => rfl)
/-- Where it reads path: at (c, d). -/
theorem path_at (i : S128x128.Idx) (c d : Fin 16384) : ridx_main_v1 (lidx_main_v2 i c) d = ix2 c d :=
  funext fun a => Fin.ext (by match a with | ⟨0, _⟩ => rfl | ⟨1, _⟩ => rfl)
/-- Where entry (c, m) of X reads emb: at (c, e). -/
theorem emb_at (i : S128x128.Idx) (c : Fin 16384) (e : Fin 64) : lidx_main_v0 (ridx_main_v2 i c) e = ix2 c e :=
  funext fun a => Fin.ext (by match a with | ⟨0, _⟩ => rfl | ⟨1, _⟩ => rfl)
/-- Where it reads w: at (e, m). -/
theorem w_at (i : S128x128.Idx) (c : Fin 16384) (e : Fin 64) : ridx_main_v0 (ridx_main_v2 i c) e = ix2 e (i 1) :=
  funext fun a => Fin.ext (by match a with | ⟨0, _⟩ => rfl | ⟨1, _⟩ => rfl)

/-- The last stage of the plain program, as a function of the four argument arrays, is the composed product. -/
theorem result_eq (pools : (⟨S128x16384, .f32⟩ : BufTy).Contents (Elt Ideal)) (path : (⟨S16384x16384, .f32⟩ : BufTy).Contents (Elt Ideal))
    (emb : (⟨S16384x64, .f32⟩ : BufTy).Contents (Elt Ideal)) (w : (⟨S64x128, .f32⟩ : BufTy).Contents (Elt Ideal)) :
    val_main_v2 (F := Ideal) pools path emb w = Cert.TileSum.composed pools path emb w := by
  funext i
  rw [val_main_v2_apply]
  unfold Cert.TileSum.composed Cert.TileSum.rowTerm
  refine Finset.sum_congr rfl fun c _ => ?_
  rw [val_main_v1_apply, val_main_v0_apply]
  simp only [pools_at, path_at, emb_at, w_at]
  rfl

end Cert.ReferenceIdeal.Whole

end
-- ==== Proof.lean ====
/-
  Two programs for the composition of three matrix products,

      out(b, m) = Σ_c (Σ_d pools(b, d) · path(c, d)) · (Σ_e emb(c, e) · w(e, m)),      c over 16384 rows,

  are equal over the extended reals. The plain one forms P = pools · pathᵀ, X = emb · w and P · X whole. The tiled one
  walks the 16384 rows c in 128 tiles of 128: for each tile it forms the 128 columns of P and the 128 rows of X that
  belong to the tile, multiplies them, and adds the product to a running total that starts from zero; its changes of
  float format are the identity on the extended reals. Entry by entry the tiled result is the sum over the tiles of the
  sums over each tile's rows of the same terms the plain result sums over all rows at once — a regrouping of one finite
  sum, which needs only that addition is commutative and associative, so the claim holds for all inputs, infinite
  entries included, and the finiteness precondition is never opened.

  Tiles.lean has the regrouping and the running totals, Step.lean one tile's arithmetic read entry by entry, Left.lean
  what one run of the tiled body leaves in its buffers, Tiled.lean the induction over the tiles and the result array,
  Whole.lean the plain program's result. Both programs' termination and the unchanged arguments come from their runs.
-/
import proofs.«119083_j78683800863346_1_alg».proof.Defs
import proofs.«119083_j78683800863346_1_alg».proof.Proof.Gen.Kernel
import proofs.«119083_j78683800863346_1_alg».proof.Proof.Gen.Kernel.Skeleton
import proofs.«119083_j78683800863346_1_alg».proof.Proof.Gen.Kernel.Launch
import proofs.«119083_j78683800863346_1_alg».proof.Proof.Gen.Kernel.Points
import proofs.«119083_j78683800863346_1_alg».proof.Proof.Gen.Kernel.Frame
import proofs.«119083_j78683800863346_1_alg».proof.Proof.Gen.KernelIdeal
import proofs.«119083_j78683800863346_1_alg».proof.Proof.Gen.KernelIdeal.Skeleton
import proofs.«119083_j78683800863346_1_alg».proof.Proof.Gen.KernelIdeal.Launch
import proofs.«119083_j78683800863346_1_alg».proof.Proof.Gen.KernelIdeal.Points
import proofs.«119083_j78683800863346_1_alg».proof.Proof.Gen.KernelIdeal.Frame
import proofs.«119083_j78683800863346_1_alg».proof.Proof.Gen.ReferenceIdeal
import proofs.«119083_j78683800863346_1_alg».proof.Proof.Gen.Pre_finite_inputs
import proofs.«119083_j78683800863346_1_alg».proof.Proof.Gen.KernelIdeal.Value
import proofs.«119083_j78683800863346_1_alg».proof.Proof.Gen.ReferenceIdeal.Run
import proofs.«119083_j78683800863346_1_alg».proof.Proof.Gen.ReferenceIdeal.Read
import proofs.«119083_j78683800863346_1_alg».proof.Proof.Tiled
import proofs.«119083_j78683800863346_1_alg».proof.Proof.Whole
import Idealize.ShloMosaic.Adequacy
import Idealize.ShloMosaic.Init

noncomputable section

namespace Cert.Proof

open Idealize.ShloMosaic Idealize.SL.Sem

/-- The tiled program as printed runs to the end and leaves its arguments as they were. -/
theorem frame_tiled_words : Cert.frame_Kernel := fun m ρ _ => Cert.Kernel.Gen.frame m ρ

/-- The same program read over the extended reals does too. -/
theorem frame_tiled : Cert.frame_KernelIdeal := fun m ρ _ => Cert.KernelIdeal.Gen.frame m ρ

/-- The plain program does too: its run, with the result dropped. -/
theorem frame_plain : Cert.frame_ReferenceIdeal := fun m ρ _ =>
  (θ_run Cert.ReferenceIdeal.defs _ _).mono (fun _ h c => (h c).2) (Cert.ReferenceIdeal.Value.run (F := Ideal) m ρ)

/-- Reading the tiled program over the extended reals rewrote none of its operations. -/
theorem preserves : Cert.preserves_Kernel_KernelIdeal := trivial

/-- Run from memories that agree on the four argument arrays, the tiled program's result array ends at the composed
    product of its arguments and the plain program's at the composed product of its own: the same function of the same
    arrays. -/
theorem algebraic : Cert.algebraic_KernelIdeal_ReferenceIdeal := by
  intro m ρ m' ρ' _ hagree
  refine ⟨fun c => Cert.KernelIdeal.Tiled.result m c, Cert.KernelIdeal.Tiled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Whole.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_tiled_words, frame_tiled, frame_plain, preserves, algebraic⟩

end Cert.Proof

end
